-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x1024 : Shape := ⟨3, ![16, 1, 1024]⟩
abbrev S16x4096x1024 : Shape := ⟨3, ![16, 4096, 1024]⟩
abbrev S1024x1024 : Shape := ⟨2, ![1024, 1024]⟩
abbrev S1024 : Shape := ⟨1, ![1024]⟩
abbrev S_ : Shape := ⟨0, ![]⟩

class Facts : Prop where
  bcast_S_S16x1x1024 : S_.BroadcastsInDim S16x1x1024 (![] : Fin 0 → Fin S16x1x1024.rank)
  reducesTo_S16x1x1024_S_d0_1_2 : S16x1x1024.ReducesTo [0, 1, 2] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S16x1x1024 .f32) (main_arg1 : FVec F S16x4096x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S16x1x1024 .f32 := Host.absf main_arg0
  let main_cst : FVec F S_ .f32 := constant S_ .f32 0x7F800000#32
  let main_v1 : FVec F S16x1x1024 .f32 := broadcastInDim S16x1x1024 ![] bcast_S_S16x1x1024 main_cst
  let main_v2 : IVec S16x1x1024 1 := cmpf .olt main_v0 main_v1
  let main_c : IVec S_ 1 := constantI S_ 1 1#1
  let main_v3 : IVec S_ 1 := (fun x v => Host.reduce IntOp.andi x v reducesTo_S16x1x1024_S_d0_1_2 h_S_) main_v2 main_c
  let main_v4 : FVec F S16x4096x1024 .f32 := Host.absf main_arg1
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S16x1x1024 : Shape := ⟨3, ![16, 1, 1024]⟩
abbrev S16x4096x1024 : Shape := ⟨3, ![16, 4096, 1024]⟩
abbrev S1024x1024 : Shape := ⟨2, ![1024, 1024]⟩
abbrev S1024 : Shape := ⟨1, ![1024]⟩
abbrev S1x1x1024 : Shape := ⟨3, ![1, 1, 1024]⟩
abbrev S1x1024x1024 : Shape := ⟨3, ![1, 1024, 1024]⟩
abbrev S1x1024 : Shape := ⟨2, ![1, 1024]⟩

abbrev nBuf : Space → Nat
  | .hbm => 12
  | .vmem => 14
  | .smem => 0
  | _ => 0

abbrev bufTy : (tb : Table) → Fin (tcTables nBuf tb) → BufTy
  | .hbm, ⟨0, _⟩ => ⟨S16x1x1024, .f32⟩
  | .hbm, ⟨1, _⟩ => ⟨S16x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S16x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1024x1024, .bf16⟩
  | .local _ .vmem, ⟨9, _⟩ => ⟨S1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .bf16⟩
  | _, _ => ⟨S16x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v33 : BitVec 1 := Scalar.cmpi .eq arg1 c3_i32
  let v34 : BitVec 32 := Scalar.extui v33
  let c0_i32_19 : BitVec 32 := 0#32
  let v35 : BitVec 1 := Scalar.cmpi .ne v34 c0_i32_19
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  packedbf16_S1x1024_S1x1024_0_0 : (Rect.unit (s := S1x1024) ![0, 0] S1x1024.size inb_S1x1024_S1x1024_0_0).PackedRows (EltTy.packing .bf16)
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  broadcasts_S1x1024_S1024x1024 : S1x1024.Broadcasts S1024x1024
  shapeCasts_S1x1024_S1x1x1024 : S1x1024.ShapeCasts S1x1x1024
  dot_S1x1024_S1024x1024_S1x1024_1_1_0_0_n_n_wf : DotDims.WF S1x1024 S1024x1024 S1x1024 [1] [1] [0] [0] [] []
  dot_S1024x1024_S1024x1024_S1024x1024_1_1_0_0_n_n_wf : DotDims.WF S1024x1024 S1024x1024 S1024x1024 [1] [1] [0] [0] [] []
  dot_S1x1024_S1024x1024_S1x1024_1_0_0_1_n_n_wf : DotDims.WF S1x1024 S1024x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024.size a ≤ S16x1x1024.size a
  hwx0_0 : ∀ i : grid0.Coords, EltTy.bits .f32 = 32 ∨ (Rect.block (s := S16x1x1024) S1x1x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x4096x1024.size a
  hwx0_1 : ∀ i : grid0.Coords, EltTy.bits .f32 = 32 ∨ (Rect.block (s := S16x4096x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024.size a ≤ S16x1x1024.size a
  hwx0_8 : ∀ i : grid0.Coords, EltTy.bits .f32 = 32 ∨ (Rect.block (s := S16x1x1024) S1x1x1024.size (cc0_transform_8 i) (hinb0_8 i)).WholeWords (EltTy.packing .f32)

variable [Facts₀]

def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf

abbrev win0_0 : Pipeline.Window sig grid0 :=
  Pipeline.Window.ofSpec (Memref.whole main_arg0) S1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x1x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16x1x1024 : Shape := ⟨3, ![16, 1, 1024]⟩
abbrev S16x4096x1024 : Shape := ⟨3, ![16, 4096, 1024]⟩
abbrev S1024x1024 : Shape := ⟨2, ![1024, 1024]⟩
abbrev S1024 : Shape := ⟨1, ![1024]⟩
abbrev S1x1x1024 : Shape := ⟨3, ![1, 1, 1024]⟩
abbrev S16x1x4096 : Shape := ⟨3, ![16, 1, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16x1x1024, .f32⟩
  | .hbm, ⟨1, _⟩ => ⟨S16x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S16x1x1024, .f32⟩
  | .hbm, ⟨9, _⟩ => ⟨S1x1x1024, .f32⟩
  | .hbm, ⟨10, _⟩ => ⟨S16x1x1024, .f32⟩
  | .hbm, ⟨11, _⟩ => ⟨S16x1x1024, .f32⟩
  | .hbm, ⟨12, _⟩ => ⟨S16x4096x1024, .f32⟩
  | .hbm, ⟨13, _⟩ => ⟨S1x1x1024, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S1x1x1024, .f32⟩
  | .hbm, ⟨18, _⟩ => ⟨S16x4096x1024, .f32⟩
  | .hbm, ⟨19, _⟩ => ⟨S16x4096x1024, .f32⟩
  | .hbm, ⟨20, _⟩ => ⟨S16x1x4096, .f32⟩
  | .hbm, ⟨21, _⟩ => ⟨S_, .f32⟩
  | .hbm, ⟨22, _⟩ => ⟨S16x1x4096, .f32⟩
  | .hbm, ⟨23, _⟩ => ⟨S16x1x4096, .f32⟩
  | .hbm, ⟨24, _⟩ => ⟨S16x1x1024, .f32⟩
  | _, _ => ⟨S16x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x1x1024_0_1_2 : S1x1x1024.BroadcastsInDim S16x1x1024 (![0, 1, 2] : Fin 3 → Fin S16x1x1024.rank)
  bcast_S1x1x1024_S16x4096x1024_0_1_2 : S1x1x1024.BroadcastsInDim S16x4096x1024 (![0, 1, 2] : Fin 3 → Fin S16x4096x1024.rank)
  bcast_S_S16x1x4096 : S_.BroadcastsInDim S16x1x4096 (![] : Fin 0 → Fin S16x1x4096.rank)
  dot_S16x1x1024_S1024x1024_S16x1x1024_2_1_01_0_n_n_wf : DotDims.WF S16x1x1024 S1024x1024 S16x1x1024 [2] [1] [0, 1] [0] [] []
  dot_S16x4096x1024_S1024x1024_S16x4096x1024_2_1_01_0_n_n_wf : DotDims.WF S16x4096x1024 S1024x1024 S16x4096x1024 [2] [1] [0, 1] [0] [] []
  dot_S16x1x1024_S16x4096x1024_S16x1x4096_2_2_1_1_0_0_wf : DotDims.WF S16x1x1024 S16x4096x1024 S16x1x4096 [2] [2] [1] [1] [0] [0]
  dot_S16x1x4096_S16x4096x1024_S16x1x1024_2_1_1_2_0_0_wf : DotDims.WF S16x1x4096 S16x4096x1024 S16x1x1024 [2] [1] [1] [2] [0] [0]

variable [Facts₀]

def dot_S16x1x1024_S1024x1024_S16x1x1024_2_1_01_0_n_n : DotDims S16x1x1024 S1024x1024 S16x1x1024 where
  lhsContracting := [2]
  rhsContracting := [1]
  lhsNonContracting := [0, 1]
  rhsNonContracting := [0]
  lhsBatch := []
  rhsBatch := []
  wf := dot_S16x1x1024_S1024x1024_S16x1x1024_2_1_01_0_n_n_wf
def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf
def dot_S16x1x1024_S16x4096x1024_S16x1x4096_2_2_1_1_0_0 : DotDims S16x1x1024 S16x4096x1024 S16x1x4096 where
  lhsContracting := [2]
  rhsContracting := [2]
  lhsNonContracting := [1]
  rhsNonContracting := [1]
  lhsBatch := [0]
  rhsBatch := [0]
  wf := dot_S16x1x1024_S16x4096x1024_S16x1x4096_2_2_1_1_0_0_wf
def dot_S16x1x4096_S16x4096x1024_S16x1x1024_2_1_1_2_0_0 : DotDims S16x1x4096 S16x4096x1024 S16x1x1024 where
  lhsContracting := [2]
  rhsContracting := [1]
  lhsNonContracting := [1]
  rhsNonContracting := [2]
  lhsBatch := [0]
  rhsBatch := [0]
  wf := dot_S16x1x4096_S16x4096x1024_S16x1x1024_2_1_1_2_0_0_wf

class Facts : Prop extends Facts₀ where

variable [Facts]
-- ==== Proof.Spec.lean ====
/-
  The mathematics both programs compute, over the extended reals, as functions of the eight argument arrays.

  For a batch row `b`: the query `q = pool[b]·Wqᵀ + bq` (one row of 1024 features); for every sequence position `s`
  the key `k[s] = bert[b,s]·Wkᵀ + bk` and the value `v[s] = bert[b,s]·Wvᵀ + bv`; the unnormalised weight
  `a[s] = ⟨q, k[s]⟩ · 2⁻⁶` (the sequence length is 4096 = 64², so the reference's division by `√4096 = 64` is a
  multiplication by the dyadic `2⁻⁶`, exactly); and the result `out[b, d] = ∑ₛ a[s] · v[s, d]`.

  The kernel walks the 4096 positions in four tiles of 1024 and keeps a running sum that starts at zero, so what it
  leaves is `(((0 + T₀) + T₁) + T₂) + T₃` with `Tⱼ` the sum over tile `j`; addition of extended reals is a commutative
  monoid, so that is the whole sum (`attend_eq_accum`). No finiteness is needed anywhere.
-/
import Idealize.ShloMosaic.PureOps.Ideal
import Idealize.ShloMosaic.Lib.ValueIdx

noncomputable section

namespace Cert.Spec

open Idealize.ShloMosaic Idealize.ShloMosaic.ValueIdx

/-- The shapes of the arrays: the pooled rows and the result, the token rows, a weight matrix, a bias. -/
abbrev SP : Shape := ⟨3, ![16, 1, 1024]⟩
abbrev SB : Shape := ⟨3, ![16, 4096, 1024]⟩
abbrev SW : Shape := ⟨2, ![1024, 1024]⟩
abbrev SV : Shape := ⟨1, ![1024]⟩

/-! ## The two constants -/

/-- The word `0x42800000` is the real number 64. -/
theorem ofBits_64 : Ideal.ofBits .f32 0x42800000#32 = ((64 : ℝ) : EReal) := by
  simp [Ideal.ofBits, Ideal.ieee, -EReal.coe_mul]; norm_num

/-- The word `0x3C800000` is the real number 1/64. -/
theorem ofBits_inv64 : Ideal.ofBits .f32 0x3C800000#32 = ((1 / 64 : ℝ) : EReal) := by
  simp [Ideal.ofBits, Ideal.ieee, -EReal.coe_mul]; norm_num

/-- The kernel's scale factor `2⁻⁶`. -/
def cInv : EReal := Ideal.ofBits .f32 0x3C800000#32

/-- Dividing an extended real by 64 is multiplying it by `2⁻⁶` (at the infinities too). -/
theorem div_64 (x : EReal) : Ideal.div x (Ideal.ofBits .f32 0x42800000#32) = x * cInv := by
  rw [ofBits_64, Ideal.div_coe (by norm_num : (64 : ℝ) ≠ 0), cInv, ofBits_inv64]

/-! ## The function -/

/-- Feature `o` of a linear layer `x ↦ x·Wᵀ + β` applied to one row `x`. -/
def lin (x : Fin 1024 → EReal) (W : SW.Idx → EReal) (β : SV.Idx → EReal) (o : Fin 1024) : EReal :=
  (∑ v : Fin 1024, x v * W (ix2 o v)) + β (ix1 o)

/-- The query row of batch row `b`. -/
def query (pool : SP.Idx → EReal) (Wq : SW.Idx → EReal) (bq : SV.Idx → EReal) (b : Fin 16) (o : Fin 1024) : EReal :=
  lin (fun v => pool (ix3 b 0 v)) Wq bq o

/-- A projection (key or value) of the token at position `s` of batch row `b`. -/
def proj (bert : SB.Idx → EReal) (W : SW.Idx → EReal) (β : SV.Idx → EReal) (b : Fin 16) (s : Fin 4096) (o : Fin 1024) : EReal :=
  lin (fun v => bert (ix3 b s v)) W β o

/-- The unnormalised attention weight of position `s`: `⟨q, k[s]⟩ · 2⁻⁶`. -/
def score (pool : SP.Idx → EReal) (bert : SB.Idx → EReal) (Wq : SW.Idx → EReal) (bq : SV.Idx → EReal)
    (Wk : SW.Idx → EReal) (bk : SV.Idx → EReal) (b : Fin 16) (s : Fin 4096) : EReal :=
  (∑ e : Fin 1024, query pool Wq bq b e * proj bert Wk bk b s e) * cInv

/-- One position's contribution to feature `d` of the result. -/
def term (pool : SP.Idx → EReal) (bert : SB.Idx → EReal) (Wq : SW.Idx → EReal) (bq : SV.Idx → EReal)
    (Wk : SW.Idx → EReal) (bk : SV.Idx → EReal) (Wv : SW.Idx → EReal) (bv : SV.Idx → EReal)
    (b : Fin 16) (d : Fin 1024) (s : Fin 4096) : EReal :=
  score pool bert Wq bq Wk bk b s * proj bert Wv bv b s d

/-- Feature `d` of the result for batch row `b`: the sum over all 4096 positions. -/
def attend (pool : SP.Idx → EReal) (bert : SB.Idx → EReal) (Wq : SW.Idx → EReal) (bq : SV.Idx → EReal)
    (Wk : SW.Idx → EReal) (bk : SV.Idx → EReal) (Wv : SW.Idx → EReal) (bv : SV.Idx → EReal)
    (b : Fin 16) (d : Fin 1024) : EReal :=
  ∑ s : Fin 4096, term pool bert Wq bq Wk bk Wv bv b d s

/-- The result array. -/
def out (pool : SP.Idx → EReal) (bert : SB.Idx → EReal) (Wq : SW.Idx → EReal) (bq : SV.Idx → EReal)
    (Wk : SW.Idx → EReal) (bk : SV.Idx → EReal) (Wv : SW.Idx → EReal) (bv : SV.Idx → EReal) : SP.Idx → EReal :=
  fun i => attend pool bert Wq bq Wk bk Wv bv (i 0) (i 2)

/-! ## The sum, tile by tile -/

/-- Position `r` of tile `j` (total in `j`: only `j < 4` is ever used, where no wrap-around happens). -/
def pos (j : ℕ) (r : Fin 1024) : Fin 4096 := ⟨(1024 * j + r.val) % 4096, Nat.mod_lt _ (by norm_num)⟩

theorem pos_val {j : ℕ} (hj : j < 4) (r : Fin 1024) : (pos j r).val = 1024 * j + r.val := by
  have := r.isLt
  show (1024 * j + r.val) % 4096 = _
  exact Nat.mod_eq_of_lt (by omega)

/-- Tile `j`'s share of the sum. -/
def tile (f : Fin 4096 → EReal) (j : ℕ) : EReal := ∑ r : Fin 1024, f (pos j r)

/-- The running sum after tile `j`, started from zero, in tile order. -/
def accum (f : Fin 4096 → EReal) : ℕ → EReal
  | 0 => 0 + tile f 0
  | j + 1 => accum f j + tile f (j + 1)

/-- The four tiles are the whole sum. -/
theorem sum_eq_accum (f : Fin 4096 → EReal) : ∑ s : Fin 4096, f s = accum f 3 := by
  have e : ∑ s : Fin 4096, f s = ∑ p : Fin 4 × Fin 1024, f (finProdFinEquiv p) :=
    (Equiv.sum_comp (finProdFinEquiv : Fin 4 × Fin 1024 ≃ Fin (4 * 1024)) f).symm
  have hp : ∀ (j : Fin 4) (r : Fin 1024), (finProdFinEquiv (j, r) : Fin (4 * 1024)) = pos j.val r := fun j r =>
    Fin.ext (by
      rw [pos_val j.isLt]
      show r.val + 1024 * j.val = 1024 * j.val + r.val
      omega)
  rw [e, Fintype.sum_prod_type, Fin.sum_univ_four]
  simp only [hp]
  show _ = ((((0 : EReal) + tile f 0) + tile f 1) + tile f 2) + tile f 3
  rw [zero_add]
  rfl

end Cert.Spec

end
-- ==== Proof.RefBridge.lean ====
/-
  The reference's result is the specification's function of the eight arrays. Its three linear layers are the query row
  and the key and value projections (a contraction over the input features, plus the broadcast bias); its batched
  `q·kᵀ` divided by 64 is the scaled score (division by 64 is multiplication by 2⁻⁶ on every extended real); its
  batched `a·v` is the sum over the 4096 positions. Each stage is read at an index and its composed index maps are
  identified with the coordinates.
-/
import proofs.«101198_j45792941310015_1_alg».proof.Proof.Gen.ReferenceIdeal.Read
import proofs.«101198_j45792941310015_1_alg».proof.Proof.Spec
import Idealize.ShloMosaic.Lib.ValueIdx
import Idealize.ShloMosaic.PureOps.Ideal.Laws

noncomputable section

namespace Cert.RefBridge

open Cert.ReferenceIdeal Cert.ReferenceIdeal.Read Idealize.ShloMosaic Idealize.ShloMosaic.ValueIdx

/-! ## The index maps of the reference's stages, at an index given by its coordinates -/

theorem lidx0 (b : Fin 16) (c : Fin 1) (e k : Fin 1024) : lidx_main_v0 (ix3 b c e) k = ix3 b c k :=
  funext fun a => match a with | ⟨0, _⟩ => rfl | ⟨1, _⟩ => rfl | ⟨2, _⟩ => rfl

theorem ridx0 (b : Fin 16) (c : Fin 1) (e k : Fin 1024) : ridx_main_v0 (ix3 b c e) k = ix2 e k :=
  funext fun a => match a with | ⟨0, _⟩ => rfl | ⟨1, _⟩ => rfl

theorem bidx2 (b : Fin 16) (c : Fin 1) (e : Fin 1024) : idx_main_v1 (idx_main_v2 (ix3 b c e)) = ix1 e :=
  funext fun a => match a with | ⟨0, _⟩ => rfl

theorem lidx4 (b : Fin 16) (s : Fin 4096) (e k : Fin 1024) : lidx_main_v4 (ix3 b s e) k = ix3 b s k :=
  funext fun a => match a with | ⟨0, _⟩ => rfl | ⟨1, _⟩ => rfl | ⟨2, _⟩ => rfl

theorem ridx4 (b : Fin 16) (s : Fin 4096) (e k : Fin 1024) : ridx_main_v4 (ix3 b s e) k = ix2 e k :=
  funext fun a => match a with | ⟨0, _⟩ => rfl | ⟨1, _⟩ => rfl

theorem bidx6 (b : Fin 16) (s : Fin 4096) (e : Fin 1024) : idx_main_v5 (idx_main_v6 (ix3 b s e)) = ix1 e :=
  funext fun a => match a with | ⟨0, _⟩ => rfl

theorem lidx8 (b : Fin 16) (s : Fin 4096) (e k : Fin 1024) : lidx_main_v8 (ix3 b s e) k = ix3 b s k :=
  funext fun a => match a with | ⟨0, _⟩ => rfl | ⟨1, _⟩ => rfl | ⟨2, _⟩ => rfl

theorem ridx8 (b : Fin 16) (s : Fin 4096) (e k : Fin 1024) : ridx_main_v8 (ix3 b s e) k = ix2 e k :=
  funext fun a => match a with | ⟨0, _⟩ => rfl | ⟨1, _⟩ => rfl

theorem bidx10 (b : Fin 16) (s : Fin 4096) (e : Fin 1024) : idx_main_v9 (idx_main_v10 (ix3 b s e)) = ix1 e :=
  funext fun a => match a with | ⟨0, _⟩ => rfl

theorem lidx12 (b : Fin 16) (c : Fin 1) (s : Fin 4096) (k : Fin 1024) : lidx_main_v12 (ix3 b c s) k = ix3 b c k :=
  funext fun a => match a with | ⟨0, _⟩ => rfl | ⟨1, _⟩ => rfl | ⟨2, _⟩ => rfl

theorem ridx12 (b : Fin 16) (c : Fin 1) (s : Fin 4096) (k : Fin 1024) : ridx_main_v12 (ix3 b c s) k = ix3 b s k :=
  funext fun a => match a with | ⟨0, _⟩ => rfl | ⟨1, _⟩ => rfl | ⟨2, _⟩ => rfl

theorem lidx15 (b : Fin 16) (c : Fin 1) (d : Fin 1024) (s : Fin 4096) : lidx_main_v15 (ix3 b c d) s = ix3 b c s :=
  funext fun a => match a with | ⟨0, _⟩ => rfl | ⟨1, _⟩ => rfl | ⟨2, _⟩ => rfl

theorem ridx15 (b : Fin 16) (c : Fin 1) (d : Fin 1024) (s : Fin 4096) : ridx_main_v15 (ix3 b c d) s = ix3 b s d :=
  funext fun a => match a with | ⟨0, _⟩ => rfl | ⟨1, _⟩ => rfl | ⟨2, _⟩ => rfl

/-! ## The three linear layers -/

/-- The first layer's output is the query row. -/
theorem v3_eq (x0 : (⟨S16x1x1024, .f32⟩ : BufTy).Contents (Elt Ideal)) (x2 : (⟨S1024x1024, .f32⟩ : BufTy).Contents (Elt Ideal))
    (x3 : (⟨S1024, .f32⟩ : BufTy).Contents (Elt Ideal)) (b : Fin 16) (e : Fin 1024) :
    val_main_v3 (F := Ideal) x0 x2 x3 (ix3 b 0 e) = Cert.Spec.query x0 x2 x3 b e := by
  rw [val_main_v3_apply, val_main_v0_apply, val_main_v2_apply, val_main_v1_apply, Ideal.addf_def, bidx2]
  unfold Cert.Spec.query Cert.Spec.lin
  simp only [lidx0, ridx0]

/-- The second layer's output is the key projection. -/
theorem v7_eq (x1 : (⟨S16x4096x1024, .f32⟩ : BufTy).Contents (Elt Ideal)) (x4 : (⟨S1024x1024, .f32⟩ : BufTy).Contents (Elt Ideal))
    (x5 : (⟨S1024, .f32⟩ : BufTy).Contents (Elt Ideal)) (b : Fin 16) (s : Fin 4096) (e : Fin 1024) :
    val_main_v7 (F := Ideal) x1 x4 x5 (ix3 b s e) = Cert.Spec.proj x1 x4 x5 b s e := by
  rw [val_main_v7_apply, val_main_v4_apply, val_main_v6_apply, val_main_v5_apply, Ideal.addf_def, bidx6]
  unfold Cert.Spec.proj Cert.Spec.lin
  simp only [lidx4, ridx4]

/-- The third layer's output is the value projection. -/
theorem v11_eq (x1 : (⟨S16x4096x1024, .f32⟩ : BufTy).Contents (Elt Ideal)) (x6 : (⟨S1024x1024, .f32⟩ : BufTy).Contents (Elt Ideal))
    (x7 : (⟨S1024, .f32⟩ : BufTy).Contents (Elt Ideal)) (b : Fin 16) (s : Fin 4096) (e : Fin 1024) :
    val_main_v11 (F := Ideal) x1 x6 x7 (ix3 b s e) = Cert.Spec.proj x1 x6 x7 b s e := by
  rw [val_main_v11_apply, val_main_v8_apply, val_main_v10_apply, val_main_v9_apply, Ideal.addf_def, bidx10]
  unfold Cert.Spec.proj Cert.Spec.lin
  simp only [lidx8, ridx8]

/-! ## The scaled score -/

/-- The divided inner product is the unnormalised weight. -/
theorem v14_eq (x0 : (⟨S16x1x1024, .f32⟩ : BufTy).Contents (Elt Ideal)) (x1 : (⟨S16x4096x1024, .f32⟩ : BufTy).Contents (Elt Ideal))
    (x2 : (⟨S1024x1024, .f32⟩ : BufTy).Contents (Elt Ideal)) (x3 : (⟨S1024, .f32⟩ : BufTy).Contents (Elt Ideal))
    (x4 : (⟨S1024x1024, .f32⟩ : BufTy).Contents (Elt Ideal)) (x5 : (⟨S1024, .f32⟩ : BufTy).Contents (Elt Ideal))
    (b : Fin 16) (s : Fin 4096) :
    val_main_v14 (F := Ideal) x0 x1 x2 x3 x4 x5 (ix3 b 0 s) = Cert.Spec.score x0 x1 x2 x3 x4 x5 b s := by
  rw [val_main_v14_apply, val_main_v12_apply, val_main_v13_apply, val_main_cst_apply, Ideal.hostDivf_def, Ideal.ofBits_def,
    Cert.Spec.div_64]
  unfold Cert.Spec.score
  simp only [lidx12, ridx12, v3_eq, v7_eq]

/-! ## The whole program -/

theorem ref_eq_out (x0 : (⟨S16x1x1024, .f32⟩ : BufTy).Contents (Elt Ideal)) (x1 : (⟨S16x4096x1024, .f32⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) :
    Cert.ReferenceIdeal.Read.val_main_v15 (F := Ideal) x0 x1 x2 x3 x4 x5 x6 x7 = Cert.Spec.out x0 x1 x2 x3 x4 x5 x6 x7 := by
  funext i
  obtain ⟨b, c, d, rfl⟩ : ∃ (b : Fin 16) (c : Fin 1) (d : Fin 1024), i = ix3 b c d := ⟨i 0, i 1, i 2, eq_ix3 i⟩
  obtain rfl : c = 0 := Subsingleton.elim _ _
  rw [val_main_v15_apply]
  show _ = Cert.Spec.attend x0 x1 x2 x3 x4 x5 x6 x7 b d
  unfold Cert.Spec.attend Cert.Spec.term
  refine Finset.sum_congr rfl fun s _ => ?_
  rw [lidx15, ridx15, v14_eq, v11_eq]

end Cert.RefBridge

end
-- ==== Proof.Pieces.lean ====
/-
  What each control case of the kernel body leaves behind, as VALUES: the accumulator scratch and the query scratch
  after the body, and the output block the last tile's case stores, each as a pure function of the blocks the body
  loaded and of what the point before left in the two scratch buffers.

    first tile of a batch row : the accumulator is reset to the zero block and then receives the tile's share, the
                                query row is computed and kept;
    middle tiles              : the accumulator receives the tile's share over what it held, the query row stays;
    last tile                 : as a middle tile, and the output block is the accumulator re-laid to [1,1,1024].
-/
import proofs.«101198_j45792941310015_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves, in the accumulator, the tile step over what the point before left in both scratch buffers. -/
theorem sout_B_0 (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .bf16) (harg12 : arg12.IsWhole) (hc0 : ¬cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .f32) (xs1 : Vec F S1x1024 .bf16) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x1 x4 x5 x6 x7 xs1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x1x1024) hz3, View.ld_unit_zero (S := S1024x1024) hz2, View.ld_unit_zero (S := S1x1024) hz2, View.ld_unit_zero (S := S1024) hz1]

/-- The last tile leaves the same in the accumulator. -/
theorem sout_C_0 (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .bf16) (harg12 : arg12.IsWhole) (hc0 : ¬cond0_0 i) (hc1 : cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .f32) (xs1 : Vec F S1x1024 .bf16) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x1 x4 x5 x6 x7 xs1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x1x1024) hz3, View.ld_unit_zero (S := S1024x1024) hz2, View.ld_unit_zero (S := S1x1024) hz2, View.ld_unit_zero (S := S1024) hz1]

/-- … and stores, as the output block, that accumulator read back and re-laid. -/
theorem out_C_8 (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .bf16) (harg12 : arg12.IsWhole) (hc0 : ¬cond0_0 i) (hc1 : cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) (xs0 : Vec F S1x1024 .f32) (xs1 : Vec F S1x1024 .bf16) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay1 (k0_pay4 x1 x4 x5 x6 x7 xs1 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x1x1024) hz3, View.ld_unit_zero (S := S1024x1024) hz2, View.ld_unit_zero (S := S1x1024) hz2, View.ld_unit_zero (S := S1024) hz1, View.readCov_unit_zero (S := S1x1024) _ hz2]

/-- The first tile: the accumulator is the tile step over the zero block and the freshly computed query row. -/
theorem sout_A_0 (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .bf16) (harg12 : arg12.IsWhole) (hc0 : cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 x1 x4 x5 x6 x7 (k0_pay3 x0 x2 x3) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S1x1024) hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x1x1024) hz3, View.ld_unit_zero (S := S1024x1024) hz2, View.ld_unit_zero (S := S1x1024) hz2, View.ld_unit_zero (S := S1024) hz1, View.readCov_unit_zero (S := S1x1024) _ hz2]

/-- The first tile leaves the query row in its scratch. -/
theorem sout_A_1 (c : Dev nD) (i : grid0.Coords) (arg2 : Memref sig .tc .vmem S1x1x1024 .f32) (harg2 : arg2.IsWhole) (arg3 : Memref sig .tc .vmem S1x1024x1024 .f32) (harg3 : arg3.IsWhole) (arg4 : Memref sig .tc .vmem S1024x1024 .bf16) (harg4 : arg4.IsWhole) (arg5 : Memref sig .tc .vmem S1024 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1024x1024 .bf16) (harg8 : arg8.IsWhole) (arg9 : Memref sig .tc .vmem S1024 .f32) (harg9 : arg9.IsWhole) (arg10 : Memref sig .tc .vmem S1x1x1024 .f32) (harg10 : arg10.IsWhole) (arg11 : Memref sig .tc .vmem S1x1024 .f32) (harg11 : arg11.IsWhole) (arg12 : Memref sig .tc .vmem S1x1024 .bf16) (harg12 : arg12.IsWhole) (hc0 : cond0_0 i) (hc1 : ¬cond0_1 i) (x0 : Vec F S1x1x1024 .f32) (x1 : Vec F S1x1024x1024 .f32) (x2 : Vec F S1024x1024 .bf16) (x3 : Vec F S1024 .f32) (x4 : Vec F S1024x1024 .bf16) (x5 : Vec F S1024 .f32) (x6 : Vec F S1024x1024 .bf16) (x7 : Vec F S1024 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay3 x0 x2 x3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, View.ld_unit_zero (S := S1x1024x1024) hz3, View.ld_unit_zero (S := S1x1x1024) hz3, View.ld_unit_zero (S := S1024x1024) hz2, View.ld_unit_zero (S := S1x1024) hz2, View.ld_unit_zero (S := S1024) hz1]

end Cert.KernelIdeal.Pieces

end
-- ==== Proof.Blocks.lean ====
/-
  What each input block of the kernel holds, in terms of the ARGUMENT arrays, at the ideal instance.

  Grid point `t` (of 64) is batch row `t / 4`, sequence tile `t % 4`. The pooled row's block is row `t / 4` of
  `pool`; the token block is rows `1024·(t % 4) … 1024·(t % 4) + 1023` of batch row `t / 4` of `bert`; the three weight
  matrices are staged whole, after a change of float format that is the identity on extended reals; the three bias
  rows are staged whole.
-/
import proofs.«101198_j45792941310015_1_alg».proof.Proof.Gen.KernelIdeal.Frame
import proofs.«101198_j45792941310015_1_alg».proof.Proof.Spec
import Idealize.ShloMosaic.Lib.Pipeline.Value
import Idealize.ShloMosaic.Lib.ValueIdx
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The eight argument arrays as launched, as plain functions into the extended reals. -/
abbrev pool (c : Dev nD) : Cert.Spec.SP.Idx → EReal := m ((c : Thread nD τ).loc main_arg0)
abbrev bert (c : Dev nD) : Cert.Spec.SB.Idx → EReal := m ((c : Thread nD τ).loc main_arg1)
abbrev wq (c : Dev nD) : Cert.Spec.SW.Idx → EReal := m ((c : Thread nD τ).loc main_arg2)
abbrev bq (c : Dev nD) : Cert.Spec.SV.Idx → EReal := m ((c : Thread nD τ).loc main_arg3)
abbrev wk (c : Dev nD) : Cert.Spec.SW.Idx → EReal := m ((c : Thread nD τ).loc main_arg4)
abbrev bk (c : Dev nD) : Cert.Spec.SV.Idx → EReal := m ((c : Thread nD τ).loc main_arg5)
abbrev wv (c : Dev nD) : Cert.Spec.SW.Idx → EReal := m ((c : Thread nD τ).loc main_arg6)
abbrev bv (c : Dev nD) : Cert.Spec.SV.Idx → EReal := m ((c : Thread nD τ).loc main_arg7)

/-- The block index of every window at every grid point: batch row `t / 4`, tile `t % 4`. -/
theorem idx_facts : ∀ t : Fin cfg0.N,
    win0_0.index t (0 : Fin 3) = t.val / 4 ∧ win0_0.index t (1 : Fin 3) = 0 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 3) = t.val / 4 ∧ win0_8.index t (1 : Fin 3) = 0 ∧ win0_8.index t (2 : Fin 3) = 0 :=
  (by decide +kernel : ∀ t : Fin grid0.N, _)

/-- The pooled row's block at point `t` is row `t / 4` of `pool`. -/
theorem blk0 (c : Dev nD) (t : Fin cfg0.N) (b : Fin 16) (hb : t.val / 4 = b.val) (v : Fin 1024) :
    (iblk m c 0 t : Vec Ideal S1x1x1024 .f32) (ix3 0 0 v) = pool m c (ix3 b 0 v) := by
  obtain ⟨e0, e1, e2, -⟩ := idx_facts t
  unfold iblk
  rw [View.read_apply]
  show V m c main_arg0 (((cfg0.win 0).blk t).view.emb (ix3 0 0 v)) = _
  rw [V_main_arg0]
  show m ((c : Thread nD τ).loc main_arg0) _ = m ((c : Thread nD τ).loc main_arg0) _
  congr 1
  funext a; apply Fin.ext
  match a with
  | ⟨0, _⟩ => show win0_0.index t (0 : Fin 3) * 1 + 1 * 0 = b.val; omega
  | ⟨1, _⟩ => show win0_0.index t (1 : Fin 3) * 1 + 1 * 0 = 0; omega
  | ⟨2, _⟩ => show win0_0.index t (2 : Fin 3) * 1024 + 1 * v.val = v.val; omega

/-- The token block at point `t` is tile `t % 4` of batch row `t / 4` of `bert`. -/
theorem blk1 (c : Dev nD) (t : Fin cfg0.N) (b : Fin 16) (hb : t.val / 4 = b.val) (j : ℕ) (hj : t.val % 4 = j) (r v : Fin 1024) :
    (iblk m c 1 t : Vec Ideal S1x1024x1024 .f32) (ix3 0 r v) = bert m c (ix3 b (Cert.Spec.pos j r) v) := by
  obtain ⟨-, -, -, e0, e1, e2, -⟩ := idx_facts t
  have hj4 : j < 4 := by omega
  have hp := Cert.Spec.pos_val hj4 r
  unfold iblk
  rw [View.read_apply]
  show V m c main_arg1 (((cfg0.win 1).blk t).view.emb (ix3 0 r v)) = _
  rw [V_main_arg1]
  show m ((c : Thread nD τ).loc main_arg1) _ = m ((c : Thread nD τ).loc main_arg1) _
  congr 1
  funext a; apply Fin.ext
  match a with
  | ⟨0, _⟩ => show win0_1.index t (0 : Fin 3) * 1 + 1 * 0 = b.val; omega
  | ⟨1, _⟩ => show win0_1.index t (1 : Fin 3) * 1024 + 1 * r.val = (Cert.Spec.pos j r).val; omega
  | ⟨2, _⟩ => show win0_1.index t (2 : Fin 3) * 1024 + 1 * v.val = v.val; omega

/-- The three weight arrays as the region finds them: the launched arrays through a change of float format. -/
theorem V_v0 (c : Dev nD) : (V m c main_v0 : S1024x1024.Idx → EReal) = truncf (F := Ideal) .bf16 (m ((c : Thread nD τ).loc main_arg2)) bitsLt_bf16_f32 := by
  dsimp only [V, hostOps0]; after_results
theorem V_v1 (c : Dev nD) : (V m c main_v1 : S1024x1024.Idx → EReal) = truncf (F := Ideal) .bf16 (m ((c : Thread nD τ).loc main_arg4)) bitsLt_bf16_f32 := by
  dsimp only [V, hostOps0]; after_results
theorem V_v2 (c : Dev nD) : (V m c main_v2 : S1024x1024.Idx → EReal) = truncf (F := Ideal) .bf16 (m ((c : Thread nD τ).loc main_arg6)) bitsLt_bf16_f32 := by
  dsimp only [V, hostOps0]; after_results

/-- The query weights' block is the whole of `Wq`. -/
theorem blk2 (c : Dev nD) (t : Fin cfg0.N) (o v : Fin 1024) :
    (iblk m c 2 t : Vec Ideal S1024x1024 .bf16) (ix2 o v) = wq m c (ix2 o v) := by
  obtain ⟨-, -, -, -, -, -, e0, e1, -⟩ := idx_facts t
  unfold iblk
  rw [View.read_apply]
  show (V m c main_v0 : S1024x1024.Idx → EReal) (((cfg0.win 2).blk t).view.emb (ix2 o v)) = _
  rw [V_v0]
  show m ((c : Thread nD τ).loc main_arg2) _ = m ((c : Thread nD τ).loc main_arg2) _
  congr 1
  funext a; apply Fin.ext
  match a with
  | ⟨0, _⟩ => show win0_2.index t (0 : Fin 2) * 1024 + 1 * o.val = o.val; omega
  | ⟨1, _⟩ => show win0_2.index t (1 : Fin 2) * 1024 + 1 * v.val = v.val; omega

/-- The query bias's block is the whole of `bq`. -/
theorem blk3 (c : Dev nD) (t : Fin cfg0.N) (o : Fin 1024) :
    (iblk m c 3 t : Vec Ideal S1024 .f32) (ix1 o) = bq m c (ix1 o) := by
  have e := idx_facts t
  unfold iblk
  rw [View.read_apply]
  show V m c main_arg3 (((cfg0.win 3).blk t).view.emb (ix1 o)) = _
  rw [V_main_arg3]
  show m ((c : Thread nD τ).loc main_arg3) _ = m ((c : Thread nD τ).loc main_arg3) _
  congr 1
  funext a; apply Fin.ext
  match a with
  | ⟨0, _⟩ => show win0_3.index t (0 : Fin 1) * 1024 + 1 * o.val = o.val; omega

/-- The key weights' block is the whole of `Wk`. -/
theorem blk4 (c : Dev nD) (t : Fin cfg0.N) (o v : Fin 1024) :
    (iblk m c 4 t : Vec Ideal S1024x1024 .bf16) (ix2 o v) = wk m c (ix2 o v) := by
  have e := idx_facts t
  unfold iblk
  rw [View.read_apply]
  show (V m c main_v1 : S1024x1024.Idx → EReal) (((cfg0.win 4).blk t).view.emb (ix2 o v)) = _
  rw [V_v1]
  show m ((c : Thread nD τ).loc main_arg4) _ = m ((c : Thread nD τ).loc main_arg4) _
  congr 1
  funext a; apply Fin.ext
  match a with
  | ⟨0, _⟩ => show win0_4.index t (0 : Fin 2) * 1024 + 1 * o.val = o.val; omega
  | ⟨1, _⟩ => show win0_4.index t (1 : Fin 2) * 1024 + 1 * v.val = v.val; omega

/-- The key bias's block is the whole of `bk`. -/
theorem blk5 (c : Dev nD) (t : Fin cfg0.N) (o : Fin 1024) :
    (iblk m c 5 t : Vec Ideal S1024 .f32) (ix1 o) = bk m c (ix1 o) := by
  have e := idx_facts t
  unfold iblk
  rw [View.read_apply]
  show V m c main_arg5 (((cfg0.win 5).blk t).view.emb (ix1 o)) = _
  rw [V_main_arg5]
  show m ((c : Thread nD τ).loc main_arg5) _ = m ((c : Thread nD τ).loc main_arg5) _
  congr 1
  funext a; apply Fin.ext
  match a with
  | ⟨0, _⟩ => show win0_5.index t (0 : Fin 1) * 1024 + 1 * o.val = o.val; omega

/-- The value weights' block is the whole of `Wv`. -/
theorem blk6 (c : Dev nD) (t : Fin cfg0.N) (o v : Fin 1024) :
    (iblk m c 6 t : Vec Ideal S1024x1024 .bf16) (ix2 o v) = wv m c (ix2 o v) := by
  have e := idx_facts t
  unfold iblk
  rw [View.read_apply]
  show (V m c main_v2 : S1024x1024.Idx → EReal) (((cfg0.win 6).blk t).view.emb (ix2 o v)) = _
  rw [V_v2]
  show m ((c : Thread nD τ).loc main_arg6) _ = m ((c : Thread nD τ).loc main_arg6) _
  congr 1
  funext a; apply Fin.ext
  match a with
  | ⟨0, _⟩ => show win0_6.index t (0 : Fin 2) * 1024 + 1 * o.val = o.val; omega
  | ⟨1, _⟩ => show win0_6.index t (1 : Fin 2) * 1024 + 1 * v.val = v.val; omega

/-- The value bias's block is the whole of `bv`. -/
theorem blk7 (c : Dev nD) (t : Fin cfg0.N) (o : Fin 1024) :
    (iblk m c 7 t : Vec Ideal S1024 .f32) (ix1 o) = bv m c (ix1 o) := by
  have e := idx_facts t
  unfold iblk
  rw [View.read_apply]
  show V m c main_arg7 (((cfg0.win 7).blk t).view.emb (ix1 o)) = _
  rw [V_main_arg7]
  show m ((c : Thread nD τ).loc main_arg7) _ = m ((c : Thread nD τ).loc main_arg7) _
  congr 1
  funext a; apply Fin.ext
  match a with
  | ⟨0, _⟩ => show win0_7.index t (0 : Fin 1) * 1024 + 1 * o.val = o.val; omega

end Cert.KernelIdeal.Blocks

end
-- ==== Proof.Payload.lean ====
/-
  The kernel body's arithmetic, read at an index over the extended reals. Each of its four matrix products is a sum over
  the shared axis of products of entries: a row against the rows of a weight matrix (`x·Wᵀ`, three times: the query,
  the keys, the values of a tile, and the scores `q·kᵀ`), and a row against the columns of a matrix (`a·v`). A change of
  float format is the identity, a re-laying of a vector only renames its indices, so the query row is
  `∑ᵥ pool[v]·Wq[o,v] + bq[o]` and one tile step adds `∑ᵣ (⟨q, k[r]⟩·2⁻⁶)·v[r,d]` to the accumulator.
-/
import proofs.«101198_j45792941310015_1_alg».proof.Proof.Gen.KernelIdeal.Skeleton
import proofs.«101198_j45792941310015_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ## The three contractions, each read at an index

A row times a transposed matrix (both operands contract their axis 1), a matrix times a transposed matrix (likewise),
and the plain row times matrix (axis 1 of the left with axis 0 of the right). For each: the operand indices at an
output index and a contraction position, coordinate by coordinate; then the sum re-indexed over `Fin 1024`. -/

theorem lhs_DrT_0 (i : S1x1024.Idx) (q : dot_S1x1024_S1024x1024_S1x1024_1_1_0_0_n_n.contr.Idx) :
    (dot_S1x1024_S1024x1024_S1x1024_1_1_0_0_n_n.lhsIdx i q 0).val = (i 0).val := by
  unfold DotDims.lhsIdx
  rw [dif_neg (show ¬(0 : Fin S1x1024.rank) ∈ dot_S1x1024_S1024x1024_S1x1024_1_1_0_0_n_n.lhsBatch by decide), dif_pos (show (0 : Fin S1x1024.rank) ∈ dot_S1x1024_S1024x1024_S1x1024_1_1_0_0_n_n.lhsNonContracting by decide)]
  rfl
theorem lhs_DrT_1 (i : S1x1024.Idx) (q : dot_S1x1024_S1024x1024_S1x1024_1_1_0_0_n_n.contr.Idx) :
    (dot_S1x1024_S1024x1024_S1x1024_1_1_0_0_n_n.lhsIdx i q 1).val = (q ⟨0, by decide⟩).val :=
  dot_S1x1024_S1024x1024_S1x1024_1_1_0_0_n_n.lhsIdx_val_of_single rfl i q
theorem rhs_DrT_0 (i : S1x1024.Idx) (q : dot_S1x1024_S1024x1024_S1x1024_1_1_0_0_n_n.contr.Idx) :
    (dot_S1x1024_S1024x1024_S1x1024_1_1_0_0_n_n.rhsIdx i q 0).val = (i 1).val := by
  unfold DotDims.rhsIdx
  rw [dif_neg (show ¬(0 : Fin S1024x1024.rank) ∈ dot_S1x1024_S1024x1024_S1x1024_1_1_0_0_n_n.rhsBatch by decide), dif_pos (show (0 : Fin S1024x1024.rank) ∈ dot_S1x1024_S1024x1024_S1x1024_1_1_0_0_n_n.rhsNonContracting by decide)]
  rfl
theorem rhs_DrT_1 (i : S1x1024.Idx) (q : dot_S1x1024_S1024x1024_S1x1024_1_1_0_0_n_n.contr.Idx) :
    (dot_S1x1024_S1024x1024_S1x1024_1_1_0_0_n_n.rhsIdx i q 1).val = (q ⟨0, by decide⟩).val :=
  dot_S1x1024_S1024x1024_S1x1024_1_1_0_0_n_n.rhsIdx_val_of_single rfl i q

theorem lhs_DmT_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_DmT_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_DmT_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_DmT_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

theorem lhs_Drm_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide), dif_pos (show (0 : Fin S1x1024.rank) ∈ dot_S1x1024_S1024x1024_S1x1024_1_0_0_1_n_n.lhsNonContracting by decide)]
  rfl
theorem lhs_Drm_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
theorem rhs_Drm_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide), dif_pos (show (1 : Fin S1024x1024.rank) ∈ dot_S1x1024_S1024x1024_S1x1024_1_0_0_1_n_n.rhsNonContracting by decide)]
  rfl
theorem rhs_Drm_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q

/-- Entry `e` of a row times a transposed matrix, into the zero block: the sum over the shared axis of the row's entries times row `e` of the matrix. -/
theorem matmul_rowT_apply {φ₁ φ₂ : FTy} (l : FVec Ideal S1x1024 φ₁) (w : FVec Ideal S1024x1024 φ₂) (r : Fin 1) (e : Fin 1024) :
    matmul (F := Ideal) dot_S1x1024_S1024x1024_S1x1024_1_1_0_0_n_n none l w (constant S1x1024 .f32 0x00000000#32) (ix2 r e)
      = ∑ v : Fin 1024, l (ix2 r v) * w (ix2 e v) := by
  refine (Ideal.matmul_constant_zero_apply dot_S1x1024_S1024x1024_S1x1024_1_1_0_0_n_n none l w (ix2 r e)).trans ?_
  rw [← Equiv.sum_comp (ValueIdx.contrEquiv1 dot_S1x1024_S1024x1024_S1x1024_1_1_0_0_n_n 1024 rfl rfl).symm]
  refine Finset.sum_congr rfl fun v _ => ?_
  have hk := ValueIdx.contrEquiv1_symm_val dot_S1x1024_S1024x1024_S1x1024_1_1_0_0_n_n 1024 rfl rfl v
  have el : dot_S1x1024_S1024x1024_S1x1024_1_1_0_0_n_n.lhsIdx (ix2 r e) ((ValueIdx.contrEquiv1 dot_S1x1024_S1024x1024_S1x1024_1_1_0_0_n_n 1024 rfl rfl).symm v) = ix2 r v := funext fun a => Fin.ext (by
    match a with
    | ⟨0, _⟩ => exact lhs_DrT_0 _ _
    | ⟨1, _⟩ => exact (lhs_DrT_1 _ _).trans hk)
  have er : dot_S1x1024_S1024x1024_S1x1024_1_1_0_0_n_n.rhsIdx (ix2 r e) ((ValueIdx.contrEquiv1 dot_S1x1024_S1024x1024_S1x1024_1_1_0_0_n_n 1024 rfl rfl).symm v) = ix2 e v := funext fun a => Fin.ext (by
    match a with
    | ⟨0, _⟩ => exact rhs_DrT_0 _ _
    | ⟨1, _⟩ => exact (rhs_DrT_1 _ _).trans hk)
  rw [el, er]

/-- Entry `(r, e)` of a matrix times a transposed matrix, into the zero block: row `r` of the left against row `e` of the right. -/
theorem matmul_matT_apply {φ₁ φ₂ : FTy} (l : FVec Ideal S1024x1024 φ₁) (w : FVec Ideal S1024x1024 φ₂) (r : Fin 1024) (e : Fin 1024) :
    matmul (F := Ideal) dot_S1024x1024_S1024x1024_S1024x1024_1_1_0_0_n_n none l w (constant S1024x1024 .f32 0x00000000#32) (ix2 r e)
      = ∑ v : Fin 1024, l (ix2 r v) * w (ix2 e v) := by
  refine (Ideal.matmul_constant_zero_apply dot_S1024x1024_S1024x1024_S1024x1024_1_1_0_0_n_n none l w (ix2 r e)).trans ?_
  rw [← Equiv.sum_comp (ValueIdx.contrEquiv1 dot_S1024x1024_S1024x1024_S1024x1024_1_1_0_0_n_n 1024 rfl rfl).symm]
  refine Finset.sum_congr rfl fun v _ => ?_
  have hk := ValueIdx.contrEquiv1_symm_val dot_S1024x1024_S1024x1024_S1024x1024_1_1_0_0_n_n 1024 rfl rfl v
  have el : dot_S1024x1024_S1024x1024_S1024x1024_1_1_0_0_n_n.lhsIdx (ix2 r e) ((ValueIdx.contrEquiv1 dot_S1024x1024_S1024x1024_S1024x1024_1_1_0_0_n_n 1024 rfl rfl).symm v) = ix2 r v := funext fun a => Fin.ext (by
    match a with
    | ⟨0, _⟩ => exact lhs_DmT_0 _ _
    | ⟨1, _⟩ => exact (lhs_DmT_1 _ _).trans hk)
  have er : dot_S1024x1024_S1024x1024_S1024x1024_1_1_0_0_n_n.rhsIdx (ix2 r e) ((ValueIdx.contrEquiv1 dot_S1024x1024_S1024x1024_S1024x1024_1_1_0_0_n_n 1024 rfl rfl).symm v) = ix2 e v := funext fun a => Fin.ext (by
    match a with
    | ⟨0, _⟩ => exact rhs_DmT_0 _ _
    | ⟨1, _⟩ => exact (rhs_DmT_1 _ _).trans hk)
  rw [el, er]

/-- Entry `e` of a row times a matrix, into the zero block: the row against column `e` of the matrix. -/
theorem matmul_row_apply {φ₁ φ₂ : FTy} (l : FVec Ideal S1x1024 φ₁) (w : FVec Ideal S1024x1024 φ₂) (r : Fin 1) (e : Fin 1024) :
    matmul (F := Ideal) dot_S1x1024_S1024x1024_S1x1024_1_0_0_1_n_n none l w (constant S1x1024 .f32 0x00000000#32) (ix2 r e)
      = ∑ v : Fin 1024, l (ix2 r v) * w (ix2 v e) := by
  refine (Ideal.matmul_constant_zero_apply dot_S1x1024_S1024x1024_S1x1024_1_0_0_1_n_n none l w (ix2 r e)).trans ?_
  rw [← Equiv.sum_comp (ValueIdx.contrEquiv1 dot_S1x1024_S1024x1024_S1x1024_1_0_0_1_n_n 1024 rfl rfl).symm]
  refine Finset.sum_congr rfl fun v _ => ?_
  have hk := ValueIdx.contrEquiv1_symm_val dot_S1x1024_S1024x1024_S1x1024_1_0_0_1_n_n 1024 rfl rfl v
  have el : dot_S1x1024_S1024x1024_S1x1024_1_0_0_1_n_n.lhsIdx (ix2 r e) ((ValueIdx.contrEquiv1 dot_S1x1024_S1024x1024_S1x1024_1_0_0_1_n_n 1024 rfl rfl).symm v) = ix2 r v := funext fun a => Fin.ext (by
    match a with
    | ⟨0, _⟩ => exact lhs_Drm_0 _ _
    | ⟨1, _⟩ => exact (lhs_Drm_1 _ _).trans hk)
  have er : dot_S1x1024_S1024x1024_S1x1024_1_0_0_1_n_n.rhsIdx (ix2 r e) ((ValueIdx.contrEquiv1 dot_S1x1024_S1024x1024_S1x1024_1_0_0_1_n_n 1024 rfl rfl).symm v) = ix2 v e := funext fun a => Fin.ext (by
    match a with
    | ⟨0, _⟩ => exact (rhs_Drm_0 _ _).trans hk
    | ⟨1, _⟩ => exact rhs_Drm_1 _ _)
  rw [el, er]

/-! ## The layout steps around the contractions -/

/-- A key or value projection of the tile, entry `(r, e)`: row `r` of the tile against row `e` of the weight, plus the
bias at `e` (the bias row is broadcast over the tile's rows; the narrowing casts are exact here). -/
theorem proj_apply (x : Vec Ideal S1x1024x1024 .f32) (W : Vec Ideal S1024x1024 .bf16) (β : Vec Ideal S1024 .f32)
    (hx : S1x1024x1024.ShapeCasts S1024x1024) (hβ : S1024.ShapeCasts S1x1024) (hb : S1x1024.Broadcasts S1024x1024)
    (ht : FTy.bits .bf16 < FTy.bits .f32) (r e : Fin 1024) :
    (truncf .bf16 (addf (matmul (F := Ideal) (φ₁ := .bf16) (φ₂ := .bf16) dot_S1024x1024_S1024x1024_S1024x1024_1_1_0_0_n_n none
        (truncf .bf16 (shapeCast S1024x1024 x hx) ht) W (constant S1024x1024 .f32 0x00000000#32))
        (broadcastTo S1024x1024 (shapeCast S1x1024 β hβ) hb)) ht : FVec Ideal S1024x1024 .bf16) (ix2 r e)
      = (∑ v : Fin 1024, x (ix3 0 r v) * W (ix2 e v)) + β (ix1 e) := by
  rw [truncf_apply, addf_apply, matmul_matT_apply, broadcastTo_1b_ab_apply, shapeCast_a_1a_apply]
  refine congrArg (· + β (ix1 e)) (Finset.sum_congr rfl fun v _ => ?_)
  rw [truncf_apply, shapeCast_1ab_ab_apply]

/-! ## The four payloads at an index -/

/-- The block the first tile stores into the accumulator is zero everywhere. -/
theorem pay2_apply (y : S1x1024.Idx) : k0_pay2 (F := Ideal) y = 0 := by
  unfold k0_pay2
  simp only [shapeCast_self]
  exact Ideal.ofBits_zero_f32

/-- The last tile's store: the accumulator row with a unit axis put in front. -/
theorem pay1_apply (v36 : Vec Ideal S1x1024 .f32) (d : Fin 1024) :
    k0_pay1 (F := Ideal) v36 (ix3 0 0 d) = v36 (ix2 0 d) := by
  unfold k0_pay1
  exact shapeCast_ab_1ab_apply v36 _ 0 0 d

/-- The query row, feature `o`: the pooled row against row `o` of the query weight, plus the bias at `o`. -/
theorem pay3_apply (v40 : Vec Ideal S1x1x1024 .f32) (v43 : Vec Ideal S1024x1024 .bf16) (v46 : Vec Ideal S1024 .f32) (o : Fin 1024) :
    k0_pay3 (F := Ideal) v40 v43 v46 (ix2 0 o) = (∑ v : Fin 1024, v40 (ix3 0 0 v) * v43 (ix2 o v)) + v46 (ix1 o) := by
  unfold k0_pay3
  simp only [shapeCast_self]
  rw [truncf_apply, addf_apply, matmul_rowT_apply, shapeCast_a_1a_apply]
  refine congrArg (· + v46 (ix1 o)) (Finset.sum_congr rfl fun v _ => ?_)
  rw [truncf_apply, shapeCast_1ab_ab_apply]

/-- The tile step, feature `d`: the carried accumulator plus, over the tile's rows `r`, the scaled score of row `r`
(the query row against the key projection of row `r`, times `2⁻⁶`) times the value projection of row `r` at `d`. -/
theorem pay4_apply (v3 : Vec Ideal S1x1024x1024 .f32) (v6 : Vec Ideal S1024x1024 .bf16) (v9 : Vec Ideal S1024 .f32)
    (v13 : Vec Ideal S1024x1024 .bf16) (v16 : Vec Ideal S1024 .f32) (v20 : Vec Ideal S1x1024 .bf16)
    (v28 : Vec Ideal S1x1024 .f32) (d : Fin 1024) :
    k0_pay4 (F := Ideal) v3 v6 v9 v13 v16 v20 v28 (ix2 0 d)
      = v28 (ix2 0 d) + ∑ r : Fin 1024,
          ((∑ e : Fin 1024, v20 (ix2 0 e) * ((∑ v : Fin 1024, v3 (ix3 0 r v) * v6 (ix2 e v)) + v9 (ix1 e))) * Cert.Spec.cInv)
          * ((∑ v : Fin 1024, v3 (ix3 0 r v) * v13 (ix2 d v)) + v16 (ix1 d)) := by
  unfold k0_pay4
  simp only [shapeCast_self]
  rw [addf_apply, matmul_row_apply]
  refine congrArg (v28 (ix2 0 d) + ·) (Finset.sum_congr rfl fun r _ => ?_)
  rw [proj_apply, truncf_apply, mulf_apply, matmul_rowT_apply, broadcast_apply]
  refine congrArg (· * _) (congrArg (· * _) (Finset.sum_congr rfl fun e _ => ?_))
  rw [proj_apply]

end Cert.KernelIdeal.Pay

end
-- ==== Proof.Invariant.lean ====
/-
  The kernel's accumulation across the grid, as values at the ideal instance.

  Point `t` of the grid handles sequence tile `t % 4` of batch row `t / 4`. The body keeps two scratch rows between
  points: the query row of the batch row (computed at the row's first tile) and the running sum of the tiles' shares
  `∑ᵣ a[r]·v[r, d]` (reset to zero at the first tile). Read at an index, one tile step adds exactly the tile's share of
  the specification's sum (`step_of`), so after tile `j` the accumulator is `accum j` and the block stored at the last
  tile is the whole sum (`lastTile`).
-/
import proofs.«101198_j45792941310015_1_alg».proof.Proof.Gen.KernelIdeal.Frame
import proofs.«101198_j45792941310015_1_alg».proof.Proof.Spec
import proofs.«101198_j45792941310015_1_alg».proof.Proof.Pieces
import proofs.«101198_j45792941310015_1_alg».proof.Proof.Blocks
import proofs.«101198_j45792941310015_1_alg».proof.Proof.Payload
import Idealize.ShloMosaic.Lib.Pipeline.Value
import Idealize.ShloMosaic.Lib.ValueIdx

noncomputable section

namespace Cert.KernelIdeal.Inv

open Cert.KernelIdeal Cert.KernelIdeal.Gen Cert.KernelIdeal.Blocks Cert.KernelIdeal.Pay Idealize.ShloMosaic Idealize.ShloMosaic.TcCoe Idealize.SL.Sem
open Idealize.ShloMosaic.ValueIdx

/-- The query row from blocks that hold the pooled row, the query weights and the query bias. -/
theorem query_of (x0 : Vec Ideal S1x1x1024 .f32) (x2 : Vec Ideal S1024x1024 .bf16) (x3 : Vec Ideal S1024 .f32)
    (p : Cert.Spec.SP.Idx → EReal) (W : Cert.Spec.SW.Idx → EReal) (β : Cert.Spec.SV.Idx → EReal) (b : Fin 16)
    (h0 : ∀ v, x0 (ix3 0 0 v) = p (ix3 b 0 v)) (h2 : ∀ o v, x2 (ix2 o v) = W (ix2 o v)) (h3 : ∀ o, x3 (ix1 o) = β (ix1 o))
    (e : Fin 1024) : k0_pay3 (F := Ideal) x0 x2 x3 (ix2 0 e) = Cert.Spec.query p W β b e := by
  rw [pay3_apply]
  simp only [h0, h2, h3]
  rfl

/-- One tile step at an index: over an accumulator that holds `A` and a query scratch that holds the query row, with
    blocks that hold the tile's token rows and the key and value weights and biases, the step adds the tile's share. -/
theorem step_of (x1 : Vec Ideal S1x1024x1024 .f32) (x4 : Vec Ideal S1024x1024 .bf16) (x5 : Vec Ideal S1024 .f32)
    (x6 : Vec Ideal S1024x1024 .bf16) (x7 : Vec Ideal S1024 .f32) (xs1 : Vec Ideal S1x1024 .bf16) (xs0 : Vec Ideal S1x1024 .f32)
    (p : Cert.Spec.SP.Idx → EReal) (B : Cert.Spec.SB.Idx → EReal) (Wq : Cert.Spec.SW.Idx → EReal) (βq : Cert.Spec.SV.Idx → EReal)
    (Wk : Cert.Spec.SW.Idx → EReal) (βk : Cert.Spec.SV.Idx → EReal) (Wv : Cert.Spec.SW.Idx → EReal) (βv : Cert.Spec.SV.Idx → EReal)
    (b : Fin 16) (j : ℕ) (A : Fin 1024 → EReal)
    (h1 : ∀ r v, x1 (ix3 0 r v) = B (ix3 b (Cert.Spec.pos j r) v))
    (h4 : ∀ o v, x4 (ix2 o v) = Wk (ix2 o v)) (h5 : ∀ o, x5 (ix1 o) = βk (ix1 o))
    (h6 : ∀ o v, x6 (ix2 o v) = Wv (ix2 o v)) (h7 : ∀ o, x7 (ix1 o) = βv (ix1 o))
    (hq : ∀ e, xs1 (ix2 0 e) = Cert.Spec.query p Wq βq b e) (ha : ∀ d, xs0 (ix2 0 d) = A d) (d : Fin 1024) :
    k0_pay4 (F := Ideal) x1 x4 x5 x6 x7 xs1 xs0 (ix2 0 d)
      = A d + Cert.Spec.tile (Cert.Spec.term p B Wq βq Wk βk Wv βv b d) j := by
  rw [pay4_apply]
  simp only [h1, h4, h5, h6, h7, hq, ha]
  rfl

variable (m : (ℓ : Loc nD τ sig) → Buf (Elt Ideal) ℓ)

/-- One position's contribution, on this memory. -/
abbrev f (c : Dev nD) (b : Fin 16) (d : Fin 1024) : Fin 4096 → EReal :=
  Cert.Spec.term (pool m c) (bert m c) (wq m c) (bq m c) (wk m c) (bk m c) (wv m c) (bv m c) b d

/-- The input blocks at a point, at their literal types. -/
abbrev X0 (c : Dev nD) (t : Fin cfg0.N) : Vec Ideal S1x1x1024 .f32 := iblk m c 0 t
abbrev X1 (c : Dev nD) (t : Fin cfg0.N) : Vec Ideal S1x1024x1024 .f32 := iblk m c 1 t
abbrev X2 (c : Dev nD) (t : Fin cfg0.N) : Vec Ideal S1024x1024 .bf16 := iblk m c 2 t
abbrev X3 (c : Dev nD) (t : Fin cfg0.N) : Vec Ideal S1024 .f32 := iblk m c 3 t
abbrev X4 (c : Dev nD) (t : Fin cfg0.N) : Vec Ideal S1024x1024 .bf16 := iblk m c 4 t
abbrev X5 (c : Dev nD) (t : Fin cfg0.N) : Vec Ideal S1024 .f32 := iblk m c 5 t
abbrev X6 (c : Dev nD) (t : Fin cfg0.N) : Vec Ideal S1024x1024 .bf16 := iblk m c 6 t
abbrev X7 (c : Dev nD) (t : Fin cfg0.N) : Vec Ideal S1024 .f32 := iblk m c 7 t

/-- The query scratch and the accumulator after point `t`, at their literal types. -/
abbrev QS (c : Dev nD) (n : ℕ) (h : n < cfg0.N) : Vec Ideal S1x1024 .bf16 := (outsAt0 m c n h).2.2
abbrev AS (c : Dev nD) (n : ℕ) (h : n < cfg0.N) : Vec Ideal S1x1024 .f32 := (outsAt0 m c n h).2.1

/-- A middle tile: the query row stays, the accumulator gains the tile's share. -/
theorem caseB (c : Dev nD) (t : Fin cfg0.N) (h0 : ¬t.val % 4 = 0) (h1 : ¬t.val % 4 = 3) (b : Fin 16) (hb : t.val / 4 = b.val)
    (j : ℕ) (hj : t.val % 4 = j) (A : Fin 1024 → EReal)
    (IHq : ∀ e, QS m c (t.val - 1) (Nat.lt_of_le_of_lt (Nat.sub_le _ _) t.isLt) (ix2 0 e) = Cert.Spec.query (pool m c) (wq m c) (bq m c) b e)
    (IHa : ∀ d, AS m c (t.val - 1) (Nat.lt_of_le_of_lt (Nat.sub_le _ _) t.isLt) (ix2 0 d) = A d) :
    (∀ e, QS m c t.val t.isLt (ix2 0 e) = Cert.Spec.query (pool m c) (wq m c) (bq m c) b e)
    ∧ (∀ d, AS m c t.val t.isLt (ix2 0 d) = A d + Cert.Spec.tile (f m c b d) j) := by
  constructor
  · intro e
    show ((outsAt0 m c t.val t.isLt).2.2 : Vec Ideal S1x1024 .bf16) (ix2 0 e) = _
    rw [outsAt0_B m c t h0 h1]
    dsimp only
    exact IHq e
  · intro d
    show ((outsAt0 m c t.val t.isLt).2.1 : Vec Ideal S1x1024 .f32) (ix2 0 d) = _
    rw [outsAt0_B m c t h0 h1]
    dsimp only
    refine (congrFun (Cert.KernelIdeal.Pieces.sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) (fun h => h1 ((hcond0_1 t).mp h)) (X0 m c t) (X1 m c t) (X2 m c t) (X3 m c t) (X4 m c t) (X5 m c t) (X6 m c t) (X7 m c t) (AS m c (t.val - 1) (Nat.lt_of_le_of_lt (Nat.sub_le _ _) t.isLt)) (QS m c (t.val - 1) (Nat.lt_of_le_of_lt (Nat.sub_le _ _) t.isLt))) (ix2 0 d)).trans ?_
    exact step_of (X1 m c t) (X4 m c t) (X5 m c t) (X6 m c t) (X7 m c t) (QS m c (t.val - 1) (Nat.lt_of_le_of_lt (Nat.sub_le _ _) t.isLt)) (AS m c (t.val - 1) (Nat.lt_of_le_of_lt (Nat.sub_le _ _) t.isLt))
      (pool m c) (bert m c) (wq m c) (bq m c) (wk m c) (bk m c) (wv m c) (bv m c) b j A
      (fun r v => blk1 m c t b hb j hj r v) (fun o v => blk4 m c t o v) (fun o => blk5 m c t o) (fun o v => blk6 m c t o v) (fun o => blk7 m c t o) IHq IHa d

/-- The last tile: as a middle tile, and the output block is the accumulator it leaves. -/
theorem caseC (c : Dev nD) (t : Fin cfg0.N) (h0 : ¬t.val % 4 = 0) (h1 : t.val % 4 = 3) (b : Fin 16) (hb : t.val / 4 = b.val)
    (j : ℕ) (hj : t.val % 4 = j) (A : Fin 1024 → EReal)
    (IHq : ∀ e, QS m c (t.val - 1) (Nat.lt_of_le_of_lt (Nat.sub_le _ _) t.isLt) (ix2 0 e) = Cert.Spec.query (pool m c) (wq m c) (bq m c) b e)
    (IHa : ∀ d, AS m c (t.val - 1) (Nat.lt_of_le_of_lt (Nat.sub_le _ _) t.isLt) (ix2 0 d) = A d) :
    (∀ e, QS m c t.val t.isLt (ix2 0 e) = Cert.Spec.query (pool m c) (wq m c) (bq m c) b e)
    ∧ (∀ d, AS m c t.val t.isLt (ix2 0 d) = A d + Cert.Spec.tile (f m c b d) j)
    ∧ (∀ d, ((outsAt0 m c t.val t.isLt).1 : Vec Ideal S1x1x1024 .f32) (ix3 0 0 d) = A d + Cert.Spec.tile (f m c b d) j) := by
  have hstep : ∀ d, k0_pay4 (F := Ideal) (X1 m c t) (X4 m c t) (X5 m c t) (X6 m c t) (X7 m c t) (QS m c (t.val - 1) (Nat.lt_of_le_of_lt (Nat.sub_le _ _) t.isLt)) (AS m c (t.val - 1) (Nat.lt_of_le_of_lt (Nat.sub_le _ _) t.isLt)) (ix2 0 d)
      = A d + Cert.Spec.tile (f m c b d) j := fun d =>
    step_of (X1 m c t) (X4 m c t) (X5 m c t) (X6 m c t) (X7 m c t) (QS m c (t.val - 1) (Nat.lt_of_le_of_lt (Nat.sub_le _ _) t.isLt)) (AS m c (t.val - 1) (Nat.lt_of_le_of_lt (Nat.sub_le _ _) t.isLt))
      (pool m c) (bert m c) (wq m c) (bq m c) (wk m c) (bk m c) (wv m c) (bv m c) b j A (fun r v => blk1 m c t b hb j hj r v) (fun o v => blk4 m c t o v) (fun o => blk5 m c t o) (fun o v => blk6 m c t o v) (fun o => blk7 m c t o) IHq IHa d
  refine ⟨?_, ?_, ?_⟩
  · intro e
    show ((outsAt0 m c t.val t.isLt).2.2 : Vec Ideal S1x1024 .bf16) (ix2 0 e) = _
    rw [outsAt0_C m c t h0 h1]
    dsimp only
    exact IHq e
  · intro d
    show ((outsAt0 m c t.val t.isLt).2.1 : Vec Ideal S1x1024 .f32) (ix2 0 d) = _
    rw [outsAt0_C m c t h0 h1]
    dsimp only
    exact (congrFun (Cert.KernelIdeal.Pieces.sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (X0 m c t) (X1 m c t) (X2 m c t) (X3 m c t) (X4 m c t) (X5 m c t) (X6 m c t) (X7 m c t) (AS m c (t.val - 1) (Nat.lt_of_le_of_lt (Nat.sub_le _ _) t.isLt)) (QS m c (t.val - 1) (Nat.lt_of_le_of_lt (Nat.sub_le _ _) t.isLt))) (ix2 0 d)).trans (hstep d)
  · intro d
    rw [outsAt0_C m c t h0 h1]
    dsimp only
    refine (congrFun (Cert.KernelIdeal.Pieces.out_C_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h0 ((hcond0_0 t).mp h)) ((hcond0_1 t).mpr h1) (X0 m c t) (X1 m c t) (X2 m c t) (X3 m c t) (X4 m c t) (X5 m c t) (X6 m c t) (X7 m c t) (AS m c (t.val - 1) (Nat.lt_of_le_of_lt (Nat.sub_le _ _) t.isLt)) (QS m c (t.val - 1) (Nat.lt_of_le_of_lt (Nat.sub_le _ _) t.isLt))) (ix3 0 0 d)).trans ?_
    exact (pay1_apply _ d).trans (hstep d)

/-- The first tile of a batch row: the query row is computed and kept, the accumulator is zero plus the tile's share. -/
theorem caseA (c : Dev nD) (t : Fin cfg0.N) (h0 : t.val % 4 = 0) (h1 : ¬t.val % 4 = 3) (b : Fin 16) (hb : t.val / 4 = b.val)
    (j : ℕ) (hj : t.val % 4 = j) :
    (∀ e, QS m c t.val t.isLt (ix2 0 e) = Cert.Spec.query (pool m c) (wq m c) (bq m c) b e)
    ∧ (∀ d, AS m c t.val t.isLt (ix2 0 d) = 0 + Cert.Spec.tile (f m c b d) j) := by
  have hq : ∀ e, k0_pay3 (F := Ideal) (X0 m c t) (X2 m c t) (X3 m c t) (ix2 0 e) = Cert.Spec.query (pool m c) (wq m c) (bq m c) b e := fun e =>
    query_of (X0 m c t) (X2 m c t) (X3 m c t) (pool m c) (wq m c) (bq m c) b
      (fun v => blk0 m c t b hb v) (fun o v => blk2 m c t o v) (fun o => blk3 m c t o) e
  constructor
  · intro e
    show ((outsAt0 m c t.val t.isLt).2.2 : Vec Ideal S1x1024 .bf16) (ix2 0 e) = _
    rw [outsAt0_A m c t h0 h1]
    dsimp only
    exact (congrFun (Cert.KernelIdeal.Pieces.sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (X0 m c t) (X1 m c t) (X2 m c t) (X3 m c t) (X4 m c t) (X5 m c t) (X6 m c t) (X7 m c t)) (ix2 0 e)).trans (hq e)
  · intro d
    show ((outsAt0 m c t.val t.isLt).2.1 : Vec Ideal S1x1024 .f32) (ix2 0 d) = _
    rw [outsAt0_A m c t h0 h1]
    dsimp only
    refine (congrFun (Cert.KernelIdeal.Pieces.sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun h => h1 ((hcond0_1 t).mp h)) (X0 m c t) (X1 m c t) (X2 m c t) (X3 m c t) (X4 m c t) (X5 m c t) (X6 m c t) (X7 m c t)) (ix2 0 d)).trans ?_
    exact step_of (X1 m c t) (X4 m c t) (X5 m c t) (X6 m c t) (X7 m c t) (k0_pay3 (F := Ideal) (X0 m c t) (X2 m c t) (X3 m c t)) (k0_pay2 (F := Ideal))
      (pool m c) (bert m c) (wq m c) (bq m c) (wk m c) (bk m c) (wv m c) (bv m c) b j (fun _ => 0) (fun r v => blk1 m c t b hb j hj r v) (fun o v => blk4 m c t o v) (fun o => blk5 m c t o) (fun o v => blk6 m c t o v) (fun o => blk7 m c t o) hq (fun d => pay2_apply (ix2 0 d)) d

/-- After every grid point the query scratch holds the batch row's query and the accumulator the running sum of the
    batch row's tiles so far — by induction on the point: a first tile starts afresh, every other tile steps from the
    point before, which belongs to the same batch row. -/
theorem inv (c : Dev nD) : ∀ (n : ℕ) (h : n < cfg0.N) (b : Fin 16), n / 4 = b.val →
    (∀ e, QS m c n h (ix2 0 e) = Cert.Spec.query (pool m c) (wq m c) (bq m c) b e)
    ∧ (∀ d, AS m c n h (ix2 0 d) = Cert.Spec.accum (f m c b d) (n % 4))
  | 0, h, b, hb => caseA m c ⟨0, h⟩ (Nat.zero_mod _) (by show ¬(0 % 4 = 3); decide) b hb 0 (Nat.zero_mod _)
  | n + 1, h, b, hb => by
    have hN : cfg0.N = 64 := N_0
    by_cases h0 : (n + 1) % 4 = 0
    · have h1 : ¬(n + 1) % 4 = 3 := by omega
      have hA := caseA m c ⟨n + 1, h⟩ h0 h1 b hb 0 h0
      rw [h0]
      exact hA
    · have hbn : n / 4 = b.val := by omega
      obtain ⟨IHq, IHa⟩ := inv c n (Nat.lt_of_succ_lt h) b hbn
      have hj : (n + 1) % 4 = n % 4 + 1 := by omega
      rw [hj]
      by_cases h1 : (n + 1) % 4 = 3
      · have hC := caseC m c ⟨n + 1, h⟩ h0 h1 b hb (n % 4 + 1) hj (fun d => Cert.Spec.accum (f m c b d) (n % 4)) IHq IHa
        exact ⟨hC.1, hC.2.1⟩
      · exact caseB m c ⟨n + 1, h⟩ h0 h1 b hb (n % 4 + 1) hj (fun d => Cert.Spec.accum (f m c b d) (n % 4)) IHq IHa

/-- So the output block the last tile of batch row `b` stores holds, at feature `d`, the whole sum over the 4096 positions. -/
theorem lastTile (c : Dev nD) (t : Fin cfg0.N) (ht : t.val % 4 = 3) (b : Fin 16) (hb : t.val / 4 = b.val) (d : Fin 1024) :
    ((outsAt0 m c t.val t.isLt).1 : Vec Ideal S1x1x1024 .f32) (ix3 0 0 d)
      = Cert.Spec.attend (pool m c) (bert m c) (wq m c) (bq m c) (wk m c) (bk m c) (wv m c) (bv m c) b d := by
  have hN : cfg0.N = 64 := N_0
  have h0 : ¬t.val % 4 = 0 := by omega
  have hlt : t.val - 1 < cfg0.N := Nat.lt_of_le_of_lt (Nat.sub_le _ _) t.isLt
  obtain ⟨IHq, IHa⟩ := inv m c (t.val - 1) hlt b (by omega)
  have e2 : (t.val - 1) % 4 = 2 := by omega
  rw [e2] at IHa
  rw [(caseC m c t h0 ht b hb 3 ht (fun d => Cert.Spec.accum (f m c b d) 2) IHq IHa).2.2 d]
  exact (Cert.Spec.sum_eq_accum (f m c b d)).symm

end Cert.KernelIdeal.Inv

end
-- ==== Proof.KernelFinal.lean ====
/-
  From the output block to the result array. The result [16, 1, 1024] is tiled by sixteen blocks [1, 1, 1024], one per
  batch row; the block of row `b` is written back once, after the row's last sequence tile (grid point `4b + 3`). If
  what that point leaves in the block is row `b` of the specification's result, then every index of the array lies under
  exactly such a block and the array ends holding the specification's result.
-/
import proofs.«101198_j45792941310015_1_alg».proof.Proof.Gen.KernelIdeal.Value
import proofs.«101198_j45792941310015_1_alg».proof.Proof.Blocks
import proofs.«101198_j45792941310015_1_alg».proof.Proof.Spec
import Idealize.ShloMosaic.Lib.Pipeline.Value
import Idealize.ShloMosaic.Lib.ValueIdx

noncomputable section

namespace Cert.KernelIdeal.Final

open Cert.KernelIdeal Cert.KernelIdeal.Gen Cert.KernelIdeal.Blocks Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array the specification assigns to the launched arguments. -/
abbrev G (c : Dev nD) : Cert.Spec.SP.Idx → EReal :=
  Cert.Spec.out (pool m c) (bert m c) (wq m c) (bq m c) (wk m c) (bk m c) (wv m c) (bv m c)

/-- After the last tile of batch row `b`, the output block holds that row of the specification's result. -/
def LastTile (c : Dev nD) : Prop := ∀ (t : Fin cfg0.N), t.val % 4 = 3 → ∀ (b : Fin 16), t.val / 4 = b.val → ∀ d : Fin 1024,
    ((outsAt0 m c t.val t.isLt).1 : Vec Ideal S1x1x1024 .f32) (ix3 0 0 d) = Cert.Spec.attend (pool m c) (bert m c) (wq m c) (bq m c) (wk m c) (bk m c) (wv m c) (bv m c) b d

/-- Where element `(0, 0, d)` of point `t`'s output block sits in the result array: row `t / 4`, feature `d`. -/
theorem emb8 (t : Fin cfg0.N) (b : Fin 16) (hb : t.val / 4 = b.val) (d : Fin 1024) :
    (((cfg0.win 8).blk t).view.emb (ix3 0 0 d) : S16x1x1024.Idx) = ix3 b 0 d := by
  obtain ⟨-, -, -, -, -, -, -, -, -, -, -, -, -, -, -, e0, e1, e2⟩ := idx_facts t
  funext a; apply Fin.ext
  match a with
  | ⟨0, _⟩ => show win0_8.index t (0 : Fin 3) * 1 + 1 * 0 = b.val; omega
  | ⟨1, _⟩ => show win0_8.index t (1 : Fin 3) * 1 + 1 * 0 = 0; omega
  | ⟨2, _⟩ => show win0_8.index t (2 : Fin 3) * 1024 + 1 * d.val = d.val; omega

/-- What the output block holds after a last tile, element by element, is the specification's result under the block. -/
theorem after_apply (c : Dev nD) (h : LastTile m c) (t : Fin cfg0.N) (h3 : t.val % 4 = 3) (y : S1x1x1024.Idx) :
    ((outsAt0 m c t.val t.isLt).1 : Vec Ideal S1x1x1024 .f32) y = G m c (((cfg0.win 8).blk t).view.emb y) := by
  have hN : t.val < 64 := lt_of_lt_of_eq t.isLt N_0
  obtain ⟨y0, y1, d, rfl⟩ : ∃ (y0 : Fin 1) (y1 : Fin 1) (d : Fin 1024), y = ix3 y0 y1 d := ⟨y 0, y 1, y 2, eq_ix3 y⟩
  obtain rfl : y0 = 0 := Subsingleton.elim _ _
  obtain rfl : y1 = 0 := Subsingleton.elim _ _
  have hb : t.val / 4 < 16 := by omega
  rw [h t h3 ⟨t.val / 4, hb⟩ rfl d, emb8 t ⟨t.val / 4, hb⟩ rfl d]
  rfl

/-- What a writing point writes back is its block of the specification's result. -/
theorem flushed_eq (c : Dev nD) (h : LastTile m c) (t : Fin cfg0.N) (hf : (cfg0.win 8).flush t = true) :
    (dats m 0 c).flushed 8 t = ((cfg0.win 8).blk t).view.read (Elt Ideal) (G m c) := by
  have h3 : t.val % 4 = 3 := (flush0_8 t).mp hf
  rw [Value.flushed8]
  funext y
  rw [View.read_apply]
  exact after_apply m c h t h3 y

/-- An index of the result array is in point `t`'s block iff each coordinate is in the block's range on its axis. -/
theorem mem_blk8 (t : Fin cfg0.N) (i : S16x1x1024.Idx) :
    i ∈ ((cfg0.win 8).blk t).view.set ↔ ∀ a : Fin 3, win0_8.index t a * S1x1x1024.size a ≤ (i a).val ∧ (i a).val < win0_8.index t a * S1x1x1024.size a + S1x1x1024.size a := by
  show i ∈ ((View.whole main_v3).slice (win0_8.rect t)).set ↔ _
  rw [View.set_slice_whole, Rect.mem_set_unit]
  exact Iff.rfl

/-- Every index of the result array is under the block of its row's last tile. -/
theorem cover8 (i : S16x1x1024.Idx) :
    ∃ t : Fin cfg0.N, (cfg0.win 8).flush t = true ∧ i ∈ ((cfg0.win 8).blk t).view.set := by
  have hi0 : (i 0).val < 16 := (i 0).isLt
  have hi1 : (i 1).val < 1 := (i 1).isLt
  have hi2 : (i 2).val < 1024 := (i 2).isLt
  have hlt : 4 * (i 0).val + 3 < cfg0.N := by rw [show cfg0.N = 64 from N_0]; omega
  refine ⟨⟨4 * (i 0).val + 3, hlt⟩, (flush0_8 _).mpr (by show (4 * (i 0).val + 3) % 4 = 3; omega), ?_⟩
  obtain ⟨-, -, -, -, -, -, -, -, -, -, -, -, -, -, -, e0, e1, e2⟩ := idx_facts ⟨4 * (i 0).val + 3, hlt⟩
  have e0' : win0_8.index ⟨4 * (i 0).val + 3, hlt⟩ (0 : Fin 3) = (i 0).val := by rw [e0]; show (4 * (i 0).val + 3) / 4 = _; omega
  rw [mem_blk8]
  intro a
  match a with
  | ⟨0, _⟩ => show win0_8.index ⟨4 * (i 0).val + 3, hlt⟩ (0 : Fin 3) * 1 ≤ (i 0).val ∧ (i 0).val < win0_8.index ⟨4 * (i 0).val + 3, hlt⟩ (0 : Fin 3) * 1 + 1; omega
  | ⟨1, _⟩ => show win0_8.index ⟨4 * (i 0).val + 3, hlt⟩ (1 : Fin 3) * 1 ≤ (i 1).val ∧ (i 1).val < win0_8.index ⟨4 * (i 0).val + 3, hlt⟩ (1 : Fin 3) * 1 + 1; omega
  | ⟨2, _⟩ => show win0_8.index ⟨4 * (i 0).val + 3, hlt⟩ (2 : Fin 3) * 1024 ≤ (i 2).val ∧ (i 2).val < win0_8.index ⟨4 * (i 0).val + 3, hlt⟩ (2 : Fin 3) * 1024 + 1024; omega

/-- The result array after the run is the specification's result. -/
theorem final8_of (c : Dev nD) (h : LastTile m c) : (dats m 0 c).arrAt 8 cfg0.N = G m c :=
  (dats m 0 c).arrAt_eq_of_cover 8 (G m c) (flushed_eq m c h) cover8

/-- The kernel's run: the result array at the specification's result, the arguments unchanged. -/
theorem run_of (h : ∀ c, LastTile m c) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r hr c => ⟨((hr c).1).trans (final8_of m c (h c)), (hr c).2⟩)
    (Cert.KernelIdeal.Value.run_blocks m ρ)

end Cert.KernelIdeal.Final

end
-- ==== Proof.lean ====
/-
  The certificate of the attention kernel against its reference.

  Both programs compute, for every batch row `b` and feature `d`,
      out[b, d] = ∑ₛ (⟨q_b, k_{b,s}⟩ · 2⁻⁶) · v_{b,s,d},      s over the 4096 sequence positions,
  with `q = pool·Wqᵀ + bq`, `k = bert·Wkᵀ + bk`, `v = bert·Wvᵀ + bv` (Proof/Spec.lean). The reference divides the scores
  by 64 where the kernel multiplies by 2⁻⁶: the same extended real. The kernel sums the positions in four tiles of
  1024 into an accumulator that starts at zero: the same sum, since addition of extended reals is associative and
  commutative. Every change of float format is the identity at the ideal instance.

    Proof/Spec.lean        the function, the two constants, the sum split into tiles
    Proof/RefBridge.lean   the reference's result is the function, operation by operation
    Proof/Payload.lean     the kernel body's arithmetic read at an index (four matrix products as sums)
    Proof/Pieces.lean      what each control case of the body leaves in the scratch rows and the output block
    Proof/Blocks.lean      what each input block holds of the argument arrays
    Proof/Invariant.lean   the accumulator after every grid point, by induction on the point
    Proof/KernelFinal.lean the result array from the blocks written back

  The three frames: the two kernels' are the generated ones; the reference's is its generated run with the result
  dropped. `preserves` is `True`: the idealization rewrote nothing.
-/
import proofs.«101198_j45792941310015_1_alg».proof.Defs
import proofs.«101198_j45792941310015_1_alg».proof.Proof.Gen.Kernel
import proofs.«101198_j45792941310015_1_alg».proof.Proof.Gen.Kernel.Skeleton
import proofs.«101198_j45792941310015_1_alg».proof.Proof.Gen.Kernel.Launch
import proofs.«101198_j45792941310015_1_alg».proof.Proof.Gen.Kernel.Points
import proofs.«101198_j45792941310015_1_alg».proof.Proof.Gen.Kernel.Frame
import proofs.«101198_j45792941310015_1_alg».proof.Proof.Gen.KernelIdeal
import proofs.«101198_j45792941310015_1_alg».proof.Proof.Gen.KernelIdeal.Skeleton
import proofs.«101198_j45792941310015_1_alg».proof.Proof.Gen.KernelIdeal.Launch
import proofs.«101198_j45792941310015_1_alg».proof.Proof.Gen.KernelIdeal.Points
import proofs.«101198_j45792941310015_1_alg».proof.Proof.Gen.KernelIdeal.Frame
import proofs.«101198_j45792941310015_1_alg».proof.Proof.Gen.ReferenceIdeal
import proofs.«101198_j45792941310015_1_alg».proof.Proof.Gen.Pre_finite_inputs
import proofs.«101198_j45792941310015_1_alg».proof.Proof.Gen.KernelIdeal.Value
import proofs.«101198_j45792941310015_1_alg».proof.Proof.Gen.ReferenceIdeal.Run
import proofs.«101198_j45792941310015_1_alg».proof.Proof.Gen.ReferenceIdeal.Read
import proofs.«101198_j45792941310015_1_alg».proof.Proof.RefBridge
import proofs.«101198_j45792941310015_1_alg».proof.Proof.Invariant
import proofs.«101198_j45792941310015_1_alg».proof.Proof.KernelFinal
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the specification's function of the (agreeing) argument arrays. -/
theorem algebraic : Cert.algebraic_KernelIdeal_ReferenceIdeal := by
  intro m ρ m' ρ' _ hagree
  refine ⟨fun c => Cert.KernelIdeal.Final.G m c,
    Cert.KernelIdeal.Final.run_of m ρ (fun c t ht b hb d => Cert.KernelIdeal.Inv.lastTile m c t ht b hb d), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v15_eq, Cert.RefBridge.ref_eq_out, (hagree c).1, (hagree c).2.1,
    (hagree c).2.2.1, (hagree c).2.2.2.1, (hagree c).2.2.2.2.1, (hagree c).2.2.2.2.2.1, (hagree c).2.2.2.2.2.2.1,
    (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
